-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel

variable [Facts]

def fn {F : FTy → Type} [FloatOps F] (main_arg0 : FVec F S256x4096 .f32) (main_arg1 : FVec F S256x4096 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S256x4096 .f32 := Host.absf main_arg1
  let main_cst_0 : FVec F S_ .f32 := constant S_ .f32 0x7F800000#32
  let main_v5 : FVec F S256x4096 .f32 := broadcastInDim S256x4096 ![] bcast_S_S256x4096 main_cst_0
  let main_v6 : IVec S256x4096 1 := cmpf .olt main_v4 main_v5
  let main_c_1 : IVec S_ 1 := constantI S_ 1 1#1
  let main_v7 : IVec S_ 1 := (fun x v => Host.reduce IntOp.andi x v reducesTo_S256x4096_S_d0_1 h_S_) main_v6 main_c_1
  let main_v8 : IVec S_ 1 := andi main_v3 main_v7
  main_v8
-- ==== Kernel.lean ====
abbrev S256x4096 : Shape := ⟨2, ![256, 4096]⟩
abbrev S256x4096x100 : Shape := ⟨3, ![256, 4096, 100]⟩
abbrev S32x256 : Shape := ⟨2, ![32, 256]⟩
abbrev S32x256x100 : Shape := ⟨3, ![32, 256, 100]⟩
abbrev S32x256x1 : Shape := ⟨3, ![32, 256, 1]⟩

abbrev nBuf : Space → Nat
  | .hbm => 3
  | .vmem => 6
  | .smem => 0
  | _ => 0

abbrev bufTy : (tb : Table) → Fin (tcTables nBuf tb) → BufTy
  | .hbm, ⟨0, _⟩ => ⟨S256x4096, .f32⟩
  | .hbm, ⟨1, _⟩ => ⟨S256x4096, .f32⟩
  | .hbm, ⟨2, _⟩ => ⟨S256x4096x100, .f32⟩
  | .local _ .vmem, ⟨0, _⟩ => ⟨S32x256, .f32⟩
  | .local _ .vmem, ⟨1, _⟩ => ⟨S32x256, .f32⟩
  | .local _ .vmem, ⟨2, _⟩ => ⟨S32x256, .f32⟩
  | .local _ .vmem, ⟨3, _⟩ => ⟨S32x256, .f32⟩
  | .local _ .vmem, ⟨4, _⟩ => ⟨S32x256x100, .f32⟩
  | .local _ .vmem, ⟨5, _⟩ => ⟨S32x256x100, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x256x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S32x256_S32x256_0_0 : ∀ a, (![0, 0] : Fin 2 → Nat) a + S32x256.size a ≤ S32x256.size a
  h_S32x256 : 0 < S32x256.numel
  iota_S32x256x100_d2_w32 : S32x256x100.Iotas .tc 32 [2]
  shapeCasts_S32x256_S32x256x1 : S32x256.ShapeCasts S32x256x1
  broadcasts_S32x256x1_S32x256x100 : S32x256x1.Broadcasts S32x256x100
  natLt_1_32 : 1 < 32
  inb_S32x256x100_S32x256x100_0_0_0 : ∀ a, (![0, 0, 0] : Fin 3 → Nat) a + S32x256x100.size a ≤ S32x256x100.size a
  h_S32x256x100 : 0 < S32x256x100.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S256x4096.size a
  hwx0_0 : ∀ i : grid0.Coords, EltTy.bits .f32 = 32 ∨ (Rect.block (s := S256x4096) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S256x4096.size a
  hwx0_1 : ∀ i : grid0.Coords, EltTy.bits .f32 = 32 ∨ (Rect.block (s := S256x4096) S32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256x100.size a ≤ S256x4096x100.size a
  hwx0_2 : ∀ i : grid0.Coords, EltTy.bits .f32 = 32 ∨ (Rect.block (s := S256x4096x100) S32x256x100.size (cc0_transform_2 i) (hinb0_2 i)).WholeWords (EltTy.packing .f32)

variable [Facts₀]

abbrev win0_0 : Pipeline.Window sig grid0 :=
  Pipeline.Window.ofSpec (Memref.whole main_arg0) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x256x100.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x4096 : Shape := ⟨2, ![256, 4096]⟩
abbrev S_ : Shape := ⟨0, ![]⟩
abbrev S256x4096x1 : Shape := ⟨3, ![256, 4096, 1]⟩
abbrev S1x1x100 : Shape := ⟨3, ![1, 1, 100]⟩
abbrev S256x4096x100 : Shape := ⟨3, ![256, 4096, 100]⟩

abbrev nBuf : Space → Nat
  | .hbm => 46
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S256x4096, .f32⟩
  | .hbm, ⟨2, _⟩ => ⟨S_, .f32⟩
  | .hbm, ⟨3, _⟩ => ⟨S256x4096, .f32⟩
  | .hbm, ⟨4, _⟩ => ⟨S256x4096, .f32⟩
  | .hbm, ⟨5, _⟩ => ⟨S256x4096, .f32⟩
  | .hbm, ⟨6, _⟩ => ⟨S256x4096, .f32⟩
  | .hbm, ⟨7, _⟩ => ⟨S256x4096, .f32⟩
  | .hbm, ⟨8, _⟩ => ⟨S_, .f32⟩
  | .hbm, ⟨9, _⟩ => ⟨S256x4096, .f32⟩
  | .hbm, ⟨10, _⟩ => ⟨S256x4096, .f32⟩
  | .hbm, ⟨11, _⟩ => ⟨S_, .f32⟩
  | .hbm, ⟨12, _⟩ => ⟨S256x4096, .f32⟩
  | .hbm, ⟨13, _⟩ => ⟨S256x4096, .f32⟩
  | .hbm, ⟨14, _⟩ => ⟨S_, .f32⟩
  | .hbm, ⟨15, _⟩ => ⟨S256x4096, .f32⟩
  | .hbm, ⟨16, _⟩ => ⟨S256x4096, .f32⟩
  | .hbm, ⟨17, _⟩ => ⟨S_, .f32⟩
  | .hbm, ⟨18, _⟩ => ⟨S256x4096, .f32⟩
  | .hbm, ⟨19, _⟩ => ⟨S256x4096, .f32⟩
  | .hbm, ⟨20, _⟩ => ⟨S_, .f32⟩
  | .hbm, ⟨21, _⟩ => ⟨S256x4096, .f32⟩
  | .hbm, ⟨22, _⟩ => ⟨S256x4096, .f32⟩
  | .hbm, ⟨23, _⟩ => ⟨S256x4096, .f32⟩
  | .hbm, ⟨24, _⟩ => ⟨S256x4096, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S256x4096, .i32⟩
  | .hbm, ⟨29, _⟩ => ⟨S256x4096, .i32⟩
  | .hbm, ⟨30, _⟩ => ⟨S_, .i32⟩
  | .hbm, ⟨31, _⟩ => ⟨S256x4096, .i32⟩
  | .hbm, ⟨32, _⟩ => ⟨S256x4096, .i32⟩
  | .hbm, ⟨33, _⟩ => ⟨S_, .f32⟩
  | .hbm, ⟨34, _⟩ => ⟨S256x4096, .f32⟩
  | .hbm, ⟨35, _⟩ => ⟨S256x4096, .i1⟩
  | .hbm, ⟨36, _⟩ => ⟨S256x4096x1, .i32⟩
  | .hbm, ⟨37, _⟩ => ⟨S1x1x100, .i32⟩
  | .hbm, ⟨38, _⟩ => ⟨S256x4096x100, .i32⟩
  | .hbm, ⟨39, _⟩ => ⟨S256x4096x100, .i32⟩
  | .hbm, ⟨40, _⟩ => ⟨S256x4096x100, .i1⟩
  | .hbm, ⟨41, _⟩ => ⟨S256x4096x100, .f32⟩
  | .hbm, ⟨42, _⟩ => ⟨S256x4096x1, .i1⟩
  | .hbm, ⟨43, _⟩ => ⟨S256x4096x1, .f32⟩
  | .hbm, ⟨44, _⟩ => ⟨S256x4096x100, .f32⟩
  | .hbm, ⟨45, _⟩ => ⟨S256x4096x100, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_c_5 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩

abbrev nD : Nat := 1
abbrev τ : Topo := Topo.v7x

variable {F : FTy → Type} [FloatOps F]

class Facts₀ : Prop where
  bcast_S_S256x4096 : S_.BroadcastsInDim S256x4096 (![] : Fin 0 → Fin S256x4096.rank)
  bcast_S256x4096_S256x4096x1_0_1 : S256x4096.BroadcastsInDim S256x4096x1 (![0, 1] : Fin 2 → Fin S256x4096x1.rank)
  bcast_S256x4096x1_S256x4096x100_0_1_2 : S256x4096x1.BroadcastsInDim S256x4096x100 (![0, 1, 2] : Fin 3 → Fin S256x4096x100.rank)
  bcast_S1x1x100_S256x4096x100_0_1_2 : S1x1x100.BroadcastsInDim S256x4096x100 (![0, 1, 2] : Fin 3 → Fin S256x4096x100.rank)

variable [Facts₀]

class Facts : Prop extends Facts₀ where

variable [Facts]
-- ==== Proof.Spike.lean ====
/-
  The spike train as ONE function of the two input arrays, and the few laws of single values that make the
  kernel's spelling and the reference's spelling of it the same extended real.

  For one input pair (x, n): the membrane value is s = logistic (x + n · c) with c the word both programs share;
  the latency is round-half-even (0 + (1 − s) · 99), converted to a 32-bit integer and clipped to [0, 99]; the
  neuron fires when s > 1/2.  Entry k of the train (k = 0 … 99) is  [latency = k] · [fires]  with each bracket the
  number 0 or 1.  Nothing here uses finiteness of the inputs: the two programs apply the same operations to the same
  operands, in the same order, and differ only in how they spell the logistic, the two brackets and the order of an
  equality's sides.
-/
import Idealize.ShloMosaic.PureOps.Ideal
import Idealize.ShloMosaic.Lib.ValueIdx

noncomputable section

namespace Cert.Spike

open Idealize.ShloMosaic Idealize.ShloMosaic.ValueIdx

/-! ## The two words whose value matters -/

/-- The word of `1.0` denotes the number 1. -/
theorem word_one : Ideal.ofBits .f32 0x3F800000#32 = 1 := by
  simp [Ideal.ofBits, Ideal.ieee, -EReal.coe_mul]; norm_num

/-- The word of `+0.0` denotes the number 0. -/
theorem word_zero : Ideal.ofBits .f32 0x00000000#32 = 0 := by
  simp [Ideal.ofBits, Ideal.ieee]

/-! ## One input pair -/

/-- The membrane value: the logistic of the input plus the scaled noise. -/
def squash (x n : Ideal .f32) : Ideal .f32 :=
  FloatOps.logistic (FloatOps.addf x (FloatOps.mulf n (FloatOps.ofBits .f32 0x3C23D70A#32)))

/-- The latency of a membrane value `s`: `0 + (1 − s) · 99` rounded half to even, as a 32-bit integer clipped to [0, 99]. -/
def latency (s : Ideal .f32) : BitVec 32 :=
  IntOp.minsi 99#32 (IntOp.maxsi 0#32 (FloatOps.fptosi 32 (FloatOps.roundeven
    (FloatOps.addf (FloatOps.ofBits .f32 0x00000000#32)
      (FloatOps.mulf (FloatOps.subf (FloatOps.ofBits .f32 0x3F800000#32) s) (FloatOps.ofBits .f32 0x42C60000#32))))))

/-- Whether a membrane value exceeds one half. -/
def fires (s : Ideal .f32) : BitVec 1 := FloatOps.cmpf .ogt s (FloatOps.ofBits .f32 0x3F000000#32)

/-- Entry `k` of the train of one input pair: 1 exactly when `k` is the latency and the neuron fires, else 0. -/
def spike (x n : Ideal .f32) (k : BitVec 32) : Ideal .f32 :=
  FloatOps.mulf (FloatOps.uitofp .f32 (IntOp.cmpi .eq (latency (squash x n)) k)) (FloatOps.uitofp .f32 (fires (squash x n)))

/-! ## The whole array -/

/-- The train of every input pair: entry (b, f, k) is entry `k` of the train of `(x (b, f), n (b, f))`. -/
def train (x n : (⟨2, ![256, 4096]⟩ : Shape).Idx → Ideal .f32) : (⟨3, ![256, 4096, 100]⟩ : Shape).Idx → Ideal .f32 :=
  fun i => spike (x (ix2 (⟨(i 0).val, (i 0).isLt⟩ : Fin 256) (⟨(i 1).val, (i 1).isLt⟩ : Fin 4096)))
    (n (ix2 (⟨(i 0).val, (i 0).isLt⟩ : Fin 256) (⟨(i 1).val, (i 1).isLt⟩ : Fin 4096))) (BitVec.ofNat 32 (i 2).val)

/-! ## The laws that join the two spellings -/

/-- The logistic spelt out — one over one plus the exponential of the negated argument, in the host's operations —
    is the logistic. -/
theorem logistic_spelt (z : Ideal .f32) :
    FloatOps.hostDivf (FloatOps.ofBits .f32 0x3F800000#32)
      (FloatOps.addf (FloatOps.ofBits .f32 0x3F800000#32) (FloatOps.hostUnary .exp (FloatOps.hostNegf z)))
    = FloatOps.logistic z := by
  show Ideal.div (Ideal.ofBits .f32 0x3F800000#32) (Ideal.ofBits .f32 0x3F800000#32 + Ideal.exp (-z)) = Ideal.div 1 (1 + Ideal.exp (-z))
  rw [word_one]

/-- A one-bit condition choosing between the words of 1.0 and 0.0 is that bit read as a number. -/
theorem select_one_zero (b : BitVec 1) :
    Scalar.select b (FloatOps.ofBits (F := Ideal) .f32 0x3F800000#32) (FloatOps.ofBits (F := Ideal) .f32 0x00000000#32)
    = FloatOps.uitofp (F := Ideal) .f32 b := by
  by_cases h : b = 1#1
  · subst h
    rw [select_one]
    show Ideal.ofBits .f32 0x3F800000#32 = (((1#1 : BitVec 1).toNat : ℝ) : EReal)
    rw [word_one]; simp
  · have h0 := eq_zero_of_ne_one h
    subst h0
    rw [select_zero]
    show Ideal.ofBits .f32 0x00000000#32 = (((0#1 : BitVec 1).toNat : ℝ) : EReal)
    rw [word_zero]; simp

/-- A one-bit value widened to 32 bits and read signed is the bit read unsigned. -/
theorem widened_signed (b : BitVec 1) :
    FloatOps.sitofp (F := Ideal) .f32 (b.setWidth 32) = FloatOps.uitofp (F := Ideal) .f32 b := by
  by_cases h : b = 1#1
  · subst h
    show ((((1#1 : BitVec 1).setWidth 32).toInt : ℝ) : EReal) = (((1#1 : BitVec 1).toNat : ℝ) : EReal)
    have e1 : ((1#1 : BitVec 1).setWidth 32).toInt = 1 := by decide
    have e2 : (1#1 : BitVec 1).toNat = 1 := by decide
    rw [e1, e2]; simp
  · have h0 := eq_zero_of_ne_one h
    subst h0
    show ((((0#1 : BitVec 1).setWidth 32).toInt : ℝ) : EReal) = (((0#1 : BitVec 1).toNat : ℝ) : EReal)
    have e1 : ((0#1 : BitVec 1).setWidth 32).toInt = 0 := by decide
    have e2 : (0#1 : BitVec 1).toNat = 0 := by decide
    rw [e1, e2]; simp

/-- Equality of two words does not depend on the order of its sides. -/
theorem cmpi_eq_comm (a b : BitVec 32) : IntOp.cmpi .eq a b = IntOp.cmpi .eq b a := by
  unfold IntOp.cmpi
  show BitVec.ofBool (a == b) = BitVec.ofBool (b == a)
  rw [show (a == b) = (b == a) from BEq.comm]

end Cert.Spike

end
-- ==== Proof.RefTrain.lean ====
/-
  The reference program computes the spike train: its last stage, read at an index (b, f, k), is entry k of the
  train of the input pair at (b, f).

  Reading the stages outermost first: the product of two factors.  The first is the one-hot test, the clipped
  latency at (b, f) — carried to (b, f, k) through a unit axis — compared with the counter k along the last axis,
  and read as a number.  The second is the firing test at (b, f), carried to (b, f, k) the same way, read as a number.
  Both reach the inputs at the one index (b, f); the membrane value is spelt as one over one plus an exponential,
  which is the logistic.
-/
import proofs.«110731_j44092134260941_1_alg».proof.Proof.Gen.ReferenceIdeal.Read
import proofs.«110731_j44092134260941_1_alg».proof.Proof.Spike

noncomputable section

namespace Cert.ReferenceIdeal.Train

open Cert.ReferenceIdeal Cert.ReferenceIdeal.Gen Cert.ReferenceIdeal.Read
open Idealize.ShloMosaic Idealize.ShloMosaic.ValueIdx

/-- Through the two unit-axis broadcasts of the latency, index (b, f, k) reads the latency at (b, f). -/
theorem latency_index (i : S256x4096x100.Idx) :
    idx_main_call2_v0 (idx_main_call2_v2 i) = ix2 (⟨(i 0).val, (i 0).isLt⟩ : Fin 256) (⟨(i 1).val, (i 1).isLt⟩ : Fin 4096) :=
  funext fun a => by match a with | ⟨0, _⟩ => rfl | ⟨1, _⟩ => rfl

/-- Through the two unit-axis broadcasts of the firing test, index (b, f, k) reads it at (b, f). -/
theorem firing_index (i : S256x4096x100.Idx) :
    idx_main_v21 (idx_main_v23 i) = ix2 (⟨(i 0).val, (i 0).isLt⟩ : Fin 256) (⟨(i 1).val, (i 1).isLt⟩ : Fin 4096) :=
  funext fun a => by match a with | ⟨0, _⟩ => rfl | ⟨1, _⟩ => rfl

/-- The reference's last stage is the train of its two arguments. -/
theorem stage_eq_train (x n : (⟨S256x4096, .f32⟩ : BufTy).Contents (Elt Ideal)) :
    val_main_v24 (F := Ideal) x n = Cert.Spike.train x n := by
  funext i
  simp only [val_main_v24_apply, val_main_v23_apply, val_main_v22_apply, val_main_v21_apply, val_main_v20_apply,
    val_main_call2_v4_apply, val_main_call2_v3_apply, val_main_call2_v2_apply, val_main_call2_v1_apply,
    val_main_call2_v0_apply, latency_index, firing_index, val_main_v19_apply, val_main_v18_apply, val_main_cst_6_apply,
    val_main_v17_apply, val_main_call1_v4_apply, val_main_call1_v3_apply, val_main_c_5_apply, val_main_call1_v2_apply,
    val_main_call1_v1_apply, val_main_call1_v0_apply, val_main_c_apply, val_main_v16_apply, val_main_v15_apply,
    val_main_v14_apply, val_main_v13_apply, val_main_cst_4_apply, val_main_v12_apply, val_main_v11_apply,
    val_main_cst_3_apply, val_main_v10_apply, val_main_v9_apply, val_main_cst_2_apply, val_main_v8_apply,
    val_main_v7_apply, val_main_cst_1_apply, val_main_v6_apply, val_main_v5_apply, val_main_cst_0_apply,
    val_main_v4_apply, val_main_v3_apply, val_main_v2_apply, val_main_v1_apply, val_main_v0_apply, val_main_cst_apply]
  rw [Cert.Spike.logistic_spelt]
  rfl

end Cert.ReferenceIdeal.Train

end
-- ==== Proof.Payload.lean ====
/-
  One block of the kernel's output, read at an index.  The body stores a [32, 256, 100] block computed from two
  [32, 256] blocks v0 (inputs) and v1 (noise).  Entry (p, q, k) of what it stores is entry k of the train of the pair
  (v0 (p, q), v1 (p, q)):

    * the latency and the firing test are computed lane by lane on the [32, 256] blocks;
    * each is carried to [32, 256, 100] by appending a unit axis and broadcasting along it, so (p, q, k) reads (p, q);
    * the counter along the last axis reads k;
    * "counter = latency" selects between the words of 1.0 and 0.0, which is that bit read as a number, and the firing
      bit is widened to 32 bits and read signed, which is the bit read unsigned.
-/
import proofs.«110731_j44092134260941_1_alg».proof.Proof.Gen.KernelIdeal.Skeleton
import proofs.«110731_j44092134260941_1_alg».proof.Proof.Spike
import Idealize.ShloMosaic.Lib.Pipeline.Value
import Idealize.ShloMosaic.Lib.ValueIdx

noncomputable section

namespace Cert.KernelIdeal.Train

open Cert.KernelIdeal Cert.KernelIdeal.Gen
open Idealize.ShloMosaic Idealize.ShloMosaic.ValueIdx
/-! ## The two layout steps -/

/-- A [32, 256, 1] column broadcast along its unit axis: (p, q, k) reads (p, q, 0). -/
theorem column_broadcast {α : Type} (v : S32x256x1.Idx → α) (h : S32x256x1.Broadcasts S32x256x100)
    (p : Fin 32) (q : Fin 256) (k : Fin 100) :
    broadcastTo S32x256x100 v h (ix3 p q k) = v (ix3 p q (0 : Fin 1)) :=
  broadcastTo_apply v h (ix3 p q k) (ix3 p q (0 : Fin 1)) (fun a => match a with
    | ⟨0, _⟩ => by show p.val = if (32 : Nat) = 1 then 0 else p.val; rw [if_neg (by decide)]
    | ⟨1, _⟩ => by show q.val = if (256 : Nat) = 1 then 0 else q.val; rw [if_neg (by decide)]
    | ⟨2, _⟩ => by show 0 = if (1 : Nat) = 1 then 0 else k.val; rw [if_pos rfl])

/-- A [32, 256] block viewed as a [32, 256, 1] column: (p, q, 0) reads (p, q). -/
theorem as_column {α : Type} (v : S32x256.Idx → α) (h : S32x256.ShapeCasts S32x256x1) (p : Fin 32) (q : Fin 256) :
    shapeCast S32x256x1 v h (ix3 p q (0 : Fin 1)) = v (ix2 p q) :=
  shapeCast_apply v h (ix3 p q (0 : Fin 1)) (ix2 p q) (by
    rw [Shape.rowMajor_val_two, Shape.rowMajor_val_three]
    show p.val * 256 + q.val = (p.val * 256 + q.val) * 1 + 0
    omega)

/-! ## The payload -/

/-- The stored value with its two lane-by-lane parts named: the latency and the firing test of each pair. -/
theorem payload_named (v0 v1 : Vec Ideal S32x256 .f32) :
    k0_pay1 (F := Ideal) v0 v1
    = mulf
        (select
          (cmpi .eq (iota .tc S32x256x100 32 [2] iota_S32x256x100_d2_w32)
            (broadcastTo S32x256x100
              (shapeCast S32x256x1 (fun y => Cert.Spike.latency (Cert.Spike.squash (v0 y) (v1 y))) shapeCasts_S32x256_S32x256x1)
              broadcasts_S32x256x1_S32x256x100))
          (broadcast S32x256x100 (FloatOps.ofBits (F := Ideal) .f32 0x3F800000#32))
          (broadcast S32x256x100 (FloatOps.ofBits (F := Ideal) .f32 0x00000000#32)))
        (broadcastTo S32x256x100
          (sitofp .f32
            (extui 32 (shapeCast S32x256x1 (fun y => Cert.Spike.fires (Cert.Spike.squash (v0 y) (v1 y))) shapeCasts_S32x256_S32x256x1)
              natLt_1_32))
          broadcasts_S32x256x1_S32x256x100) := rfl

/-- Entry (p, q, k) of the stored block is entry k of the train of the pair at (p, q). -/
theorem payload_apply (v0 v1 : Vec Ideal S32x256 .f32) (p : Fin 32) (q : Fin 256) (k : Fin 100) :
    k0_pay1 (F := Ideal) v0 v1 (ix3 p q k)
    = Cert.Spike.spike (v0 (ix2 p q)) (v1 (ix2 p q)) (BitVec.ofNat 32 k.val) := by
  rw [payload_named]
  show FloatOps.mulf
      (Scalar.select
        (IntOp.cmpi .eq (iota .tc S32x256x100 32 [2] iota_S32x256x100_d2_w32 (ix3 p q k))
          (broadcastTo S32x256x100
            (shapeCast S32x256x1 (fun y => Cert.Spike.latency (Cert.Spike.squash (v0 y) (v1 y))) shapeCasts_S32x256_S32x256x1)
            broadcasts_S32x256x1_S32x256x100 (ix3 p q k)))
        (FloatOps.ofBits (F := Ideal) .f32 0x3F800000#32) (FloatOps.ofBits (F := Ideal) .f32 0x00000000#32))
      (broadcastTo S32x256x100
        (sitofp .f32
          (extui 32 (shapeCast S32x256x1 (fun y => Cert.Spike.fires (Cert.Spike.squash (v0 y) (v1 y))) shapeCasts_S32x256_S32x256x1)
            natLt_1_32))
        broadcasts_S32x256x1_S32x256x100 (ix3 p q k))
    = _
  rw [iota_single_apply, column_broadcast, column_broadcast, as_column, Cert.Spike.select_one_zero, Cert.Spike.cmpi_eq_comm]
  show FloatOps.mulf _ (FloatOps.sitofp (F := Ideal) .f32
      ((shapeCast S32x256x1 (fun y => Cert.Spike.fires (Cert.Spike.squash (v0 y) (v1 y))) shapeCasts_S32x256_S32x256x1
        (ix3 p q (0 : Fin 1))).setWidth 32)) = _
  rw [as_column, Cert.Spike.widened_signed]
  rfl

end Cert.KernelIdeal.Train

end
-- ==== Proof.KernelTrain.lean ====
/-
  The kernel's output array is the spike train.  The grid has 8 × 16 points; point (g0, g1) reads block (g0, g1) of
  each [256, 4096] input (32 rows by 256 columns) and writes block (g0, g1, 0) of the [256, 4096, 100] output, which
  spans the whole last axis.  So entry (p, q, k) of the block a point writes sits at array index
  (32·g0 + p, 256·g1 + q, k), the two input blocks it is computed from sit at (32·g0 + p, 256·g1 + q), and the block is
  that block of the train.  The 128 blocks tile the array: index (b, f, k) is in the block of the point with
  g0 = b / 32 and g1 = f / 256.
-/
import proofs.«110731_j44092134260941_1_alg».proof.Proof.Gen.KernelIdeal.Value
import proofs.«110731_j44092134260941_1_alg».proof.Proof.Payload

set_option maxRecDepth 16384

noncomputable section

namespace Cert.KernelIdeal.Train

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin3 : (![0, 0, 0] : Fin 3 → Nat) = fun _ => 0 := funext fun a => by fin_cases a <;> rfl

/-- An entry of the train from its three ingredients. -/
theorem train_entry (x n : (⟨2, ![256, 4096]⟩ : Shape).Idx → Ideal .f32) (i : (⟨3, ![256, 4096, 100]⟩ : Shape).Idx)
    (a b : Ideal .f32) (k : BitVec 32)
    (ha : a = x (ix2 (⟨(i 0).val, (i 0).isLt⟩ : Fin 256) (⟨(i 1).val, (i 1).isLt⟩ : Fin 4096)))
    (hb : b = n (ix2 (⟨(i 0).val, (i 0).isLt⟩ : Fin 256) (⟨(i 1).val, (i 1).isLt⟩ : Fin 4096)))
    (hk : k = BitVec.ofNat 32 (i 2).val) :
    Cert.Spike.spike a b k = Cert.Spike.train x n i := by
  subst ha hb hk; rfl

/-- The index maps, decided over the 128 grid points: both input blocks move with the output block on the first two
    axes, and the output block index on the last axis is 0. -/
theorem blocks_move_together : ∀ t : Fin cfg0.N,
    win0_0.index t (0 : Fin 2) = win0_2.index t (0 : Fin 3)
    ∧ win0_0.index t (1 : Fin 2) = win0_2.index t (1 : Fin 3)
    ∧ win0_1.index t (0 : Fin 2) = win0_2.index t (0 : Fin 3)
    ∧ win0_1.index t (1 : Fin 2) = win0_2.index t (1 : Fin 3)
    ∧ win0_2.index t (2 : Fin 3) = 0 :=
  (by decide +kernel : ∀ t : Fin grid0.N, _)

/-- Every block (g0, g1, 0) of the output is some point's. -/
theorem every_block_written : ∀ (g0 : Fin 8) (g1 : Fin 16), ∃ t : Fin cfg0.N, win0_2.index t = ![g0.val, g1.val, 0] :=
  (by decide +kernel : ∀ (g0 : Fin 8) (g1 : Fin 16), ∃ t : Fin grid0.N, win0_2.index t = ![g0.val, g1.val, 0])

/-- What point `t` writes back is block `t` of the train of the two argument arrays. -/
theorem flushed_train (c : Dev nD) (t : Fin cfg0.N) :
    (dats m 0 c).flushed 2 t
    = ((cfg0.win 2).blk t).view.read (Elt Ideal) (Cert.Spike.train (V m c main_arg0) (V m c main_arg1)) := by
  rw [Cert.KernelIdeal.Value.flushed2]
  unfold out0_2
  rw [View.canon_unit_zero origin3]
  simp only [View.ld_unit_zero (S := S32x256) origin2]
  obtain ⟨e0, e1, e2, e3, e4⟩ := blocks_move_together t
  refine funext fun (j : S32x256x100.Idx) => ?_
  show k0_pay1 (F := Ideal) (iblk m c 0 t) (iblk m c 1 t) j
    = Cert.Spike.train (V m c main_arg0) (V m c main_arg1) (((cfg0.win 2).blk t).view.emb j)
  refine (congrArg (k0_pay1 (F := Ideal) (iblk m c 0 t) (iblk m c 1 t)) (eq_ix3 (n0 := 32) (n1 := 256) (n2 := 100) j)).trans ?_
  refine (payload_apply (iblk m c 0 t) (iblk m c 1 t) (j 0) (j 1) (j 2)).trans ?_
  refine train_entry _ _ _ _ _ _ ?_ ?_ ?_
  · show V m c main_arg0 (((cfg0.win 0).blk t).view.emb (ix2 (j 0) (j 1))) = _
    refine congrArg (V m c main_arg0) (funext fun a => Fin.ext ?_)
    match a with
    | ⟨0, _⟩ => show win0_0.index t (0 : Fin 2) * 32 + 1 * (j 0).val = win0_2.index t (0 : Fin 3) * 32 + 1 * (j 0).val; omega
    | ⟨1, _⟩ => show win0_0.index t (1 : Fin 2) * 256 + 1 * (j 1).val = win0_2.index t (1 : Fin 3) * 256 + 1 * (j 1).val; omega
  · show V m c main_arg1 (((cfg0.win 1).blk t).view.emb (ix2 (j 0) (j 1))) = _
    refine congrArg (V m c main_arg1) (funext fun a => Fin.ext ?_)
    match a with
    | ⟨0, _⟩ => show win0_1.index t (0 : Fin 2) * 32 + 1 * (j 0).val = win0_2.index t (0 : Fin 3) * 32 + 1 * (j 0).val; omega
    | ⟨1, _⟩ => show win0_1.index t (1 : Fin 2) * 256 + 1 * (j 1).val = win0_2.index t (1 : Fin 3) * 256 + 1 * (j 1).val; omega
  · refine congrArg (BitVec.ofNat 32) ?_
    show (j 2).val = win0_2.index t (2 : Fin 3) * 100 + 1 * (j 2).val
    omega

/-- An index of the output array is in point `t`'s block iff each coordinate is in the block's range on its axis. -/
theorem mem_block (t : Fin cfg0.N) (i : S256x4096x100.Idx) :
    i ∈ ((cfg0.win 2).blk t).view.set ↔ ∀ a : Fin 3, win0_2.index t a * S32x256x100.size a ≤ (i a).val
      ∧ (i a).val < win0_2.index t a * S32x256x100.size a + S32x256x100.size a := by
  show i ∈ ((View.whole main_v0).slice (win0_2.rect t)).set ↔ _
  rw [View.set_slice_whole, Rect.mem_set_unit]
  exact Iff.rfl

/-- The blocks tile the array: (b, f, k) is in the block of the point with block index (b / 32, f / 256, 0). -/
theorem covered (i : S256x4096x100.Idx) :
    ∃ t : Fin cfg0.N, (cfg0.win 2).flush t = true ∧ i ∈ ((cfg0.win 2).blk t).view.set := by
  have hi0 : (i 0).val < 256 := (i 0).isLt
  have hi1 : (i 1).val < 4096 := (i 1).isLt
  have hi2 : (i 2).val < 100 := (i 2).isLt
  obtain ⟨t, ht⟩ := every_block_written ⟨(i 0).val / 32, by omega⟩ ⟨(i 1).val / 256, by omega⟩
  have q0 : win0_2.index t (0 : Fin 3) = (i 0).val / 32 := congrFun ht 0
  have q1 : win0_2.index t (1 : Fin 3) = (i 1).val / 256 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 32 ≤ (i 0).val ∧ (i 0).val < win0_2.index t (0 : Fin 3) * 32 + 32; omega
  | ⟨1, _⟩ => show win0_2.index t (1 : Fin 3) * 256 ≤ (i 1).val ∧ (i 1).val < win0_2.index t (1 : Fin 3) * 256 + 256; omega
  | ⟨2, _⟩ => show win0_2.index t (2 : Fin 3) * 100 ≤ (i 2).val ∧ (i 2).val < win0_2.index t (2 : Fin 3) * 100 + 100; omega

/-- After the run the output array holds the train of the two argument arrays. -/
theorem final_train (c : Dev nD) :
    (dats m 0 c).arrAt 2 cfg0.N
    = Cert.Spike.train (m ((c : Thread nD τ).loc main_arg0)) (m ((c : Thread nD τ).loc main_arg1)) :=
  (dats m 0 c).arrAt_eq_of_cover 2 (Cert.Spike.train (V m c main_arg0) (V m c main_arg1))
    (fun t _ => flushed_train m c t) covered

/-- The kernel's run: it terminates with the output array at the train of the arguments, the arguments unchanged. -/
theorem run : θ_run defs (onTc (τ := τ) (main (F := Ideal))) ⟨m, fun _ => 0, ρ⟩ fun r => ∀ c : Dev nD,
      r.2.mem ((c : Thread nD τ).loc main_v0)
        = Cert.Spike.train (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_train m c), (h c).2⟩)
    (Cert.KernelIdeal.Value.run_blocks m ρ)

end Cert.KernelIdeal.Train

end
-- ==== Proof.lean ====
/- The proof of `Cert.Claim`: a spiking-latency encoder, its Pallas kernel against its jnp reference.

   Both programs turn each input pair (x, n) into a train of 100 numbers: the membrane value s = logistic (x + n · c),
   the latency round-half-even ((1 − s) · 99) as an integer clipped to [0, 99], and entry k of the train
   [latency = k] · [s > 1/2].  The kernel does it block by block over an 8 × 16 grid (Proof/Payload.lean: one block at
   an index; Proof/KernelTrain.lean: the blocks tile the array); the reference does it on whole arrays, with a one-hot
   comparison and the logistic spelt out (Proof/RefTrain.lean).  Proof/Spike.lean states the train as one function of
   the two arrays and the four small laws that join the two spellings.  No law used needs the inputs finite: both
   sides apply the same operations to the same operands.

   The three frames are the generated ones (the reference's is its generated run with the result dropped); the
   idealized kernel is the kernel's own text read over the extended reals, so `preserves` is `True`. -/
import proofs.«110731_j44092134260941_1_alg».proof.Defs
import proofs.«110731_j44092134260941_1_alg».proof.Proof.Gen.Kernel
import proofs.«110731_j44092134260941_1_alg».proof.Proof.Gen.Kernel.Skeleton
import proofs.«110731_j44092134260941_1_alg».proof.Proof.Gen.Kernel.Launch
import proofs.«110731_j44092134260941_1_alg».proof.Proof.Gen.Kernel.Points
import proofs.«110731_j44092134260941_1_alg».proof.Proof.Gen.Kernel.Frame
import proofs.«110731_j44092134260941_1_alg».proof.Proof.Gen.KernelIdeal
import proofs.«110731_j44092134260941_1_alg».proof.Proof.Gen.KernelIdeal.Skeleton
import proofs.«110731_j44092134260941_1_alg».proof.Proof.Gen.KernelIdeal.Launch
import proofs.«110731_j44092134260941_1_alg».proof.Proof.Gen.KernelIdeal.Points
import proofs.«110731_j44092134260941_1_alg».proof.Proof.Gen.KernelIdeal.Frame
import proofs.«110731_j44092134260941_1_alg».proof.Proof.Gen.ReferenceIdeal
import proofs.«110731_j44092134260941_1_alg».proof.Proof.Gen.Pre_finite_inputs
import proofs.«110731_j44092134260941_1_alg».proof.Proof.Gen.KernelIdeal.Value
import proofs.«110731_j44092134260941_1_alg».proof.Proof.Gen.ReferenceIdeal.Run
import proofs.«110731_j44092134260941_1_alg».proof.Proof.Gen.ReferenceIdeal.Read
import proofs.«110731_j44092134260941_1_alg».proof.Proof.Spike
import proofs.«110731_j44092134260941_1_alg».proof.Proof.RefTrain
import proofs.«110731_j44092134260941_1_alg».proof.Proof.Payload
import proofs.«110731_j44092134260941_1_alg».proof.Proof.KernelTrain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both runs end with the result array at the train of their (agreeing) arguments. -/
theorem algebraic : Cert.algebraic_KernelIdeal_ReferenceIdeal := by
  intro m ρ m' ρ' _ hagree
  refine ⟨_, Cert.KernelIdeal.Train.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.Train.stage_eq_train, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
